-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .i1⟩
  | .hbm, ⟨8, _⟩ => ⟨S32x2048x2048, .i32⟩
  | .hbm, ⟨9, _⟩ => ⟨S32x2048x64, .f32⟩
  | .hbm, ⟨10, _⟩ => ⟨S32x2048x2048, .f32⟩
  | .hbm, ⟨11, _⟩ => ⟨S2x16x2048x64, .f32⟩
  | .hbm, ⟨12, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S2x16x2048x2048_S32x2048x2048 : S2x16x2048x2048.ShapeCasts S32x2048x2048
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Consts.lean ====
/- The float literals the two programs spell, as the extended reals their bit patterns denote. The kernel scales
   the scores by the dyadic 1/8 where the reference divides by 8; both mask with minus infinity (the kernel's
   finite stand-in is named so); the kernel's reciprocal has numerator 1. -/
import Idealize.ShloMosaic.PureOps.Ideal

noncomputable section

namespace Cert.Consts

open Idealize.ShloMosaic

/-- `0.125` is the real 1/8, exactly (a power of two). -/
theorem ofBits_eighth : Ideal.ofBits .f32 0x3E000000#32 = ((1 / 8 : ℝ) : EReal) := by
  simp [Ideal.ofBits, Ideal.ieee, -EReal.coe_mul]; norm_num

/-- `8.0` is the real 8. -/
theorem ofBits_eight : Ideal.ofBits .f32 0x41000000#32 = ((8 : ℝ) : EReal) := by
  simp [Ideal.ofBits, Ideal.ieee, -EReal.coe_mul]; norm_num

/-- `1.0` is 1. -/
theorem ofBits_one : Ideal.ofBits .f32 0x3F800000#32 = 1 := by
  simp [Ideal.ofBits, Ideal.ieee, -EReal.coe_mul]; norm_num

/-- The pattern of minus infinity is the bottom of the extended reals. -/
theorem ofBits_neg_inf : Ideal.ofBits .f32 0xFF800000#32 = ⊥ := by
  simp [Ideal.ofBits, Ideal.ieee]

/-- The pattern of plus infinity is the top. -/
theorem ofBits_pos_inf : Ideal.ofBits .f32 0x7F800000#32 = ⊤ := by
  simp [Ideal.ofBits, Ideal.ieee]

end Cert.Consts

end
-- ==== Proof.Finite.lean ====
/- The precondition read back: every entry of the three float arguments is a real number.

   The printed predicate is the conjunction of three `all (|x| < +inf)`. Each conjunct being 1 gives the comparison at
   every index; and an extended real whose absolute value `max x (-x)` is below plus infinity is neither infinity. -/
import proofs.«419633_j62277025792399_3_alg».proof.Pre_finite_inputs
import proofs.«419633_j62277025792399_3_alg».proof.Proof.Consts
import Idealize.ShloMosaic.Lib.ReduceAll
import Idealize.ShloMosaic.Lib.ValueIdx
import Idealize.ShloMosaic.PureOps.Ideal

noncomputable section

namespace Cert.Attn.Finite

open Idealize.ShloMosaic Cert.Pre_finite_inputs

instance : Subsingleton S_.Idx := ⟨fun a b => funext fun d => d.elim0⟩

/-- An extended real with `|x| < +inf` is a real. -/
theorem real_of_abs_lt (x : EReal)
    (h : Ideal.cmp .olt (max x (-x)) (Ideal.ofBits .f32 0x7F800000#32) = 1#1) : ∃ r : ℝ, x = (r : EReal) := by
  rw [Cert.Consts.ofBits_pos_inf] at h
  induction x using EReal.rec with
  | bot => simp [Ideal.cmp] at h
  | top => simp [Ideal.cmp] at h
  | coe r => exact ⟨r, rfl⟩

variable [Facts]
open Facts

/-- One conjunct: `all (|x| < +inf)` gives a real at every index. -/
theorem real_of_all (x : FVec Ideal S2x16x2048x64 .f32)
    (h : Host.reduce IntOp.andi (cmpf .olt (Host.absf x) (broadcastInDim S2x16x2048x64 ![] bcast_S_S2x16x2048x64 (constant S_ .f32 0x7F800000#32)))
      (constantI S_ 1 1#1) reducesTo_S2x16x2048x64_S_d0_1_2_3 h_S_ ValueIdx.ix0 = 1#1) (i : S2x16x2048x64.Idx) :
    ∃ r : ℝ, x i = (r : EReal) :=
  real_of_abs_lt (x i) (Host.reduce_andi_all _ _ _ _ _ h i)

/-- The precondition: the three float arguments are arrays of reals. -/
theorem reals_of_pre (q k v : FVec Ideal S2x16x2048x64 .f32) (mk : IVec S2x16x2048x2048 1)
    (h : fn (F := Ideal) q k v mk = fun _ => 1#1) :
    (∀ i, ∃ r : ℝ, q i = (r : EReal)) ∧ (∀ i, ∃ r : ℝ, k i = (r : EReal)) ∧ (∀ i, ∃ r : ℝ, v i = (r : EReal)) := by
  have h0 := congrFun h ValueIdx.ix0
  dsimp only [fn] at h0
  obtain ⟨h12, h3⟩ := IntOp.andi_eq_one.1 h0
  obtain ⟨h1, h2⟩ := IntOp.andi_eq_one.1 h12
  exact ⟨real_of_all q h1, real_of_all k h2, real_of_all v h3⟩

end Cert.Attn.Finite

end
-- ==== Proof.Softmax.lean ====
/- One row of masked softmax on the extended reals, and the one law that joins the two programs.

   A row has raw scores `s c` and mask bits `b c`. A masked entry is sent to minus infinity; the row maximum `M` is
   taken over the masked row; each entry's exponential is `exp (x c - M)`; the row sum `L` adds them. The kernel then
   multiplies each exponential by the reciprocal `1 / L` while the reference divides it by `L`; both write 0 where
   the entry is masked.

   On the extended reals `e * (1 / L) = e / L` whenever `L ≠ 0` (both are `e * L⁻¹`), and fails only at
   `L = 0`, where `0 * (1/0) = 0` but `0 / 0` is the junk value. So the law is: at an UNMASKED entry the row sum is
   not zero. That is where finiteness of the scores is used: the entry's own score is a real, so the row maximum is a
   real (it is at least that score, and no score is plus infinity), so the entry's own exponential is positive, and
   the sum of nonnegative terms is at least that one. -/
import Idealize.ShloMosaic.PureOps.Ideal
import Mathlib.Data.Finset.Fold
import Mathlib.Algebra.Order.BigOperators.Group.Finset

noncomputable section

namespace Cert.Attn

open Idealize.ShloMosaic

variable {n : Nat}

/-- The row after masking: minus infinity where the bit is set, the score elsewhere. -/
def maskRow (s : Fin n → EReal) (b : Fin n → BitVec 1) : Fin n → EReal :=
  fun c => Scalar.select (b c) ⊥ (s c)

/-- The row maximum, from minus infinity. -/
def rowMax (x : Fin n → EReal) : EReal := (Finset.univ : Finset (Fin n)).fold max ⊥ x

/-- An entry's exponential against the row maximum. -/
def rowExp (x : Fin n → EReal) (c : Fin n) : EReal := Ideal.exp (x c - rowMax x)

/-- The row's sum of exponentials. -/
def rowSum (x : Fin n → EReal) : EReal := ∑ c : Fin n, rowExp x c

/-- The attention weight of entry `c`, in the reciprocal form: exponential times `1 / L`, and 0 where masked. -/
def weight (s : Fin n → EReal) (b : Fin n → BitVec 1) (c : Fin n) : EReal :=
  Scalar.select (b c) 0 (rowExp (maskRow s b) c * Ideal.div 1 (rowSum (maskRow s b)))

/-- The exponential is nonnegative everywhere (0 at minus infinity, plus infinity at plus infinity). -/
theorem exp_nonneg (y : EReal) : 0 ≤ Ideal.exp y := by
  induction y using EReal.rec with
  | bot => rw [Ideal.exp_bot]
  | top => rw [Ideal.exp_top]; exact le_top
  | coe r => rw [Ideal.exp_coe]; exact EReal.coe_nonneg.mpr (Real.exp_pos r).le

/-- At a real it is positive. -/
theorem exp_pos_coe (r : ℝ) : 0 < Ideal.exp (r : EReal) := by
  rw [Ideal.exp_coe]; exact EReal.coe_pos.mpr (Real.exp_pos r)

/-- Off a zero divisor, multiplying by the reciprocal is dividing: both are `e * L⁻¹`. -/
theorem mul_one_div {e L : EReal} (hL : L ≠ 0) : e * Ideal.div 1 L = Ideal.div e L := by
  unfold Ideal.div
  rw [if_neg hL, if_neg hL, one_mul]

/-- A masked row never holds plus infinity when its scores are reals. -/
theorem maskRow_ne_top (s : Fin n → EReal) (b : Fin n → BitVec 1) (hs : ∀ c, ∃ r : ℝ, s c = (r : EReal)) (c : Fin n) :
    maskRow s b c ≠ ⊤ := by
  unfold maskRow Scalar.select
  split
  · exact bot_ne_top
  · obtain ⟨r, hr⟩ := hs c
    rw [hr]; exact EReal.coe_ne_top r

/-- At an unmasked entry the masked row holds the score. -/
theorem maskRow_of_ne (s : Fin n → EReal) (b : Fin n → BitVec 1) (c : Fin n) (hb : ¬ b c = 1) : maskRow s b c = s c := by
  unfold maskRow Scalar.select
  rw [if_neg hb]

/-- If some entry of the row is a real and none is plus infinity, the row maximum is a real. -/
theorem rowMax_real (x : Fin n → EReal) (c₀ : Fin n) (r : ℝ) (h₀ : x c₀ = (r : EReal)) (htop : ∀ c, x c ≠ ⊤) :
    ∃ M : ℝ, rowMax x = (M : EReal) := by
  have hlt : rowMax x < ⊤ :=
    (Finset.fold_max_lt _).mpr ⟨bot_lt_top, fun c _ => lt_top_iff_ne_top.mpr (htop c)⟩
  have hge : (r : EReal) ≤ rowMax x :=
    (Finset.le_fold_max _).mpr (Or.inr ⟨c₀, Finset.mem_univ _, h₀.ge⟩)
  have hbot : rowMax x ≠ ⊥ := fun e => by
    rw [e] at hge; exact absurd (le_bot_iff.mp hge) (EReal.coe_ne_bot r)
  exact ⟨(rowMax x).toReal, (EReal.coe_toReal hlt.ne hbot).symm⟩

/-- Then that entry's exponential is positive, so the row sum, of nonnegative terms, is not zero. -/
theorem rowSum_ne_zero (x : Fin n → EReal) (c₀ : Fin n) (r : ℝ) (h₀ : x c₀ = (r : EReal)) (htop : ∀ c, x c ≠ ⊤) :
    rowSum x ≠ 0 := by
  obtain ⟨M, hM⟩ := rowMax_real x c₀ r h₀ htop
  have hpos : 0 < rowExp x c₀ := by
    unfold rowExp
    rw [h₀, hM, ← EReal.coe_sub]
    exact exp_pos_coe _
  have hle : rowExp x c₀ ≤ rowSum x :=
    Finset.single_le_sum (f := rowExp x) (fun i _ => exp_nonneg _) (Finset.mem_univ c₀)
  exact (lt_of_lt_of_le hpos hle).ne'

/-- THE LAW. With real scores, the quotient form of a weight is its reciprocal form: at a masked entry both are 0, and
    at an unmasked one the row sum is not zero. -/
theorem quotient_eq_weight (s : Fin n → EReal) (b : Fin n → BitVec 1) (hs : ∀ c, ∃ r : ℝ, s c = (r : EReal)) (c : Fin n) :
    Scalar.select (b c) 0 (Ideal.div (rowExp (maskRow s b) c) (rowSum (maskRow s b))) = weight s b c := by
  unfold weight
  by_cases hb : b c = 1
  · unfold Scalar.select; rw [if_pos hb, if_pos hb]
  · obtain ⟨r, hr⟩ := hs c
    have hL : rowSum (maskRow s b) ≠ 0 :=
      rowSum_ne_zero (maskRow s b) c r ((maskRow_of_ne s b c hb).trans hr) (maskRow_ne_top s b hs)
    rw [mul_one_div hL]

end Cert.Attn

end
-- ==== Proof.Spec.lean ====
/- What both programs compute, as one function of the argument arrays, index by index.

   For batch `b`, head `n`, query row `r`: the raw score against key `c` is the inner product over the 64
   features of `q[b,n,r,:]` and `k[b,n,c,:]`, times 1/8; the attention weight at `(b,n,r,c)` is the masked softmax
   weight of that row (Softmax.lean); the output at `(b,n,r,d)` is the weighted sum over the keys of `v[b,n,c,d]`.

   The kernel works on the arrays with batch and head merged into one axis of 32 slabs, `slab = 16 b + n`, which is
   the row-major reshape. The same function written over slabs, reshaped back, is the four-axis one: each slab's
   entries are the entries of its `(b, n)`. -/
import Idealize.ShloMosaic.Lib.ValueIdx
import Idealize.ShloMosaic.Lib.Pipeline.Value
import proofs.«419633_j62277025792399_3_alg».proof.Proof.Softmax

noncomputable section

namespace Cert.Attn

open Idealize.ShloMosaic Idealize.ShloMosaic.ValueIdx

/-- Queries, keys, values: batch 2, heads 16, length 2048, features 64. -/
abbrev Q4 : Shape := ⟨4, ![2, 16, 2048, 64]⟩
/-- Scores, mask, weights: batch 2, heads 16, query row 2048, key 2048. -/
abbrev A4 : Shape := ⟨4, ![2, 16, 2048, 2048]⟩
/-- The same with batch and head merged into 32 slabs. -/
abbrev Q3 : Shape := ⟨3, ![32, 2048, 64]⟩
abbrev A3 : Shape := ⟨3, ![32, 2048, 2048]⟩

/-- The score scale, the dyadic 1/8 (its value is read in Consts.lean, where the reference's divisor 8 meets it). -/
def eighth : EReal := Ideal.ofBits .f32 0x3E000000#32

/-! ## Over four axes -/

/-- The scaled score of query row `(b, n, r)` against key `c`. -/
def score4 (q k : Q4.Idx → EReal) (b : Fin 2) (n : Fin 16) (r c : Fin 2048) : EReal :=
  (∑ d : Fin 64, q (ix4 b n r d) * k (ix4 b n c d)) * eighth

/-- The attention weights. -/
def attn4 (q k : Q4.Idx → EReal) (mk : A4.Idx → BitVec 1) : A4.Idx → EReal := fun i =>
  weight (fun c => score4 q k (i 0) (i 1) (i 2) c) (fun c => mk (ix4 (i 0) (i 1) (i 2) c)) (i 3)

/-- The output: the weights applied to the values. -/
def out4 (q k v : Q4.Idx → EReal) (mk : A4.Idx → BitVec 1) : Q4.Idx → EReal := fun i =>
  ∑ c : Fin 2048, attn4 q k mk (ix4 (i 0) (i 1) (i 2) c) * v (ix4 (i 0) (i 1) c (i 3))

/-! ## Over slabs -/

def score3 (q k : Q3.Idx → EReal) (s : Fin 32) (r c : Fin 2048) : EReal :=
  (∑ d : Fin 64, q (ix3 s r d) * k (ix3 s c d)) * eighth

def attn3 (q k : Q3.Idx → EReal) (mk : A3.Idx → BitVec 1) : A3.Idx → EReal := fun j =>
  weight (fun c => score3 q k (j 0) (j 1) c) (fun c => mk (ix3 (j 0) (j 1) c)) (j 2)

def out3 (q k v : Q3.Idx → EReal) (mk : A3.Idx → BitVec 1) : Q3.Idx → EReal := fun j =>
  ∑ c : Fin 2048, attn3 q k mk (ix3 (j 0) (j 1) c) * v (ix3 (j 0) c (j 2))

/-! ## The reshape between them -/

/-- The slab of batch `b`, head `n`. -/
def slab (b : Fin 2) (n : Fin 16) : Fin 32 := ⟨b.val * 16 + n.val, by have := b.isLt; have := n.isLt; omega⟩

/-- Merging batch and head reads slab `16 b + n` at `(b, n)`: same row-major position. -/
theorem merge_q {α : Type} (x : Q4.Idx → α) (h : Q4.ShapeCasts Q3) (b : Fin 2) (n : Fin 16) (r : Fin 2048) (d : Fin 64) :
    shapeCast Q3 x h (ix3 (slab b n) r d) = x (ix4 b n r d) :=
  shapeCast_apply x h _ _ (by rw [Shape.rowMajor_val_four, Shape.rowMajor_val_three]; rfl)

theorem merge_a {α : Type} (x : A4.Idx → α) (h : A4.ShapeCasts A3) (b : Fin 2) (n : Fin 16) (r c : Fin 2048) :
    shapeCast A3 x h (ix3 (slab b n) r c) = x (ix4 b n r c) :=
  shapeCast_apply x h _ _ (by rw [Shape.rowMajor_val_four, Shape.rowMajor_val_three]; rfl)

/-- Splitting the slab axis back reads `(b, n)` at slab `16 b + n`. -/
theorem split_q {α : Type} (y : Q3.Idx → α) (h : Q3.ShapeCasts Q4) (b : Fin 2) (n : Fin 16) (r : Fin 2048) (d : Fin 64) :
    shapeCast Q4 y h (ix4 b n r d) = y (ix3 (slab b n) r d) :=
  shapeCast_apply y h _ _ (by rw [Shape.rowMajor_val_four, Shape.rowMajor_val_three]; rfl)

theorem split_a {α : Type} (y : A3.Idx → α) (h : A3.ShapeCasts A4) (b : Fin 2) (n : Fin 16) (r c : Fin 2048) :
    shapeCast A4 y h (ix4 b n r c) = y (ix3 (slab b n) r c) :=
  shapeCast_apply y h _ _ (by rw [Shape.rowMajor_val_four, Shape.rowMajor_val_three]; rfl)

/-- A slab's scores are its `(b, n)`'s. -/
theorem score3_merge (q k : Q4.Idx → EReal) (h : Q4.ShapeCasts Q3) (b : Fin 2) (n : Fin 16) (r c : Fin 2048) :
    score3 (shapeCast Q3 q h) (shapeCast Q3 k h) (slab b n) r c = score4 q k b n r c := by
  unfold score3 score4
  simp only [merge_q]

/-- The slab weights of the merged arrays, split back, are the four-axis weights. -/
theorem attn_reshape (q k : Q4.Idx → EReal) (mk : A4.Idx → BitVec 1) (hq : Q4.ShapeCasts Q3) (hm : A4.ShapeCasts A3)
    (ha : A3.ShapeCasts A4) :
    shapeCast A4 (attn3 (shapeCast Q3 q hq) (shapeCast Q3 k hq) (shapeCast A3 mk hm)) ha = attn4 q k mk := by
  funext i
  obtain ⟨b, n, r, c, rfl⟩ : ∃ (b : Fin 2) (n : Fin 16) (r c : Fin 2048), i = ix4 b n r c := ⟨i 0, i 1, i 2, i 3, eq_ix4 i⟩
  rw [split_a]
  show weight (fun c' => score3 (shapeCast Q3 q hq) (shapeCast Q3 k hq) (slab b n) r c')
      (fun c' => shapeCast A3 mk hm (ix3 (slab b n) r c')) c
    = weight (fun c' => score4 q k b n r c') (fun c' => mk (ix4 b n r c')) c
  simp only [score3_merge, merge_a]

/-- Likewise the output. -/
theorem out_reshape (q k v : Q4.Idx → EReal) (mk : A4.Idx → BitVec 1) (hq : Q4.ShapeCasts Q3) (hm : A4.ShapeCasts A3)
    (ho : Q3.ShapeCasts Q4) :
    shapeCast Q4 (out3 (shapeCast Q3 q hq) (shapeCast Q3 k hq) (shapeCast Q3 v hq) (shapeCast A3 mk hm)) ho = out4 q k v mk := by
  funext i
  obtain ⟨b, n, r, d, rfl⟩ : ∃ (b : Fin 2) (n : Fin 16) (r : Fin 2048) (d : Fin 64), i = ix4 b n r d := ⟨i 0, i 1, i 2, i 3, eq_ix4 i⟩
  rw [split_q]
  show (∑ c : Fin 2048, weight (fun c' => score3 (shapeCast Q3 q hq) (shapeCast Q3 k hq) (slab b n) r c')
        (fun c' => shapeCast A3 mk hm (ix3 (slab b n) r c')) c * shapeCast Q3 v hq (ix3 (slab b n) c d))
    = ∑ c : Fin 2048, weight (fun c' => score4 q k b n r c') (fun c' => mk (ix4 b n r c')) c * v (ix4 b n c d)
  simp only [score3_merge, merge_a, merge_q]

end Cert.Attn

end
-- ==== Proof.ScoreReal.lean ====
/- With real queries and keys every scaled score is a real: a finite sum of products of reals, times 1/8. -/
import proofs.«419633_j62277025792399_3_alg».proof.Proof.Spec
import proofs.«419633_j62277025792399_3_alg».proof.Proof.Consts

noncomputable section

namespace Cert.Attn

open Idealize.ShloMosaic Idealize.ShloMosaic.ValueIdx

/-- A finite sum of reals, read in the extended reals, is the sum read there. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Real queries and keys give real scores. -/
theorem score4_real (q k : Q4.Idx → EReal) (hq : ∀ i, ∃ r : ℝ, q i = (r : EReal)) (hk : ∀ i, ∃ r : ℝ, k i = (r : EReal))
    (b : Fin 2) (n : Fin 16) (r c : Fin 2048) : ∃ x : ℝ, score4 q k b n r c = (x : EReal) := by
  choose qr hqr using hq
  choose kr hkr using hk
  refine ⟨(∑ d : Fin 64, qr (ix4 b n r d) * kr (ix4 b n c d)) * (1 / 8), ?_⟩
  unfold score4 eighth
  rw [Cert.Consts.ofBits_eighth]
  simp only [hqr, hkr, ← EReal.coe_mul]
  rw [coe_sum, ← EReal.coe_mul]

end Cert.Attn

end
-- ==== Proof.RefValue.lean ====
/- The reference's two results are the specification's functions of the arguments.

   The generated read-at-an-index lemmas give each stage at an index from its operands at an index; here they are
   chained at explicit coordinates `(b, n, r, c)`. The quotient by 8 is the product with 1/8; the select against
   minus infinity is the masked row; the row maximum (a fold of `max` from minus infinity, then `max` with minus
   infinity again) is the row's maximum; the host's sum from 0 is the row sum; and the last stage, a quotient by the row
   sum, is the reciprocal form by the law of Softmax.lean, which is where the scores must be reals. -/
import proofs.«419633_j62277025792399_3_alg».proof.Proof.Gen.ReferenceIdeal.Read
import proofs.«419633_j62277025792399_3_alg».proof.Proof.Spec
import proofs.«419633_j62277025792399_3_alg».proof.Proof.ScoreReal
import proofs.«419633_j62277025792399_3_alg».proof.Proof.Consts

noncomputable section

namespace Cert.ReferenceIdeal.RefValue

open Cert.ReferenceIdeal Cert.ReferenceIdeal.Gen Cert.ReferenceIdeal.Read Idealize.ShloMosaic Idealize.ShloMosaic.ValueIdx Cert.Attn

variable (q k v : (⟨S2x16x2048x64, .f32⟩ : BufTy).Contents (Elt Ideal)) (mk : (⟨S2x16x2048x2048, .i1⟩ : BufTy).Contents (Elt Ideal))

/-! ## The composed index functions at explicit coordinates -/

theorem lidx_v0 (b : Fin 2) (n : Fin 16) (r c : Fin 2048) (d : Fin 64) : lidx_main_v0 (ix4 b n r c) d = ix4 b n r d :=
  funext fun a => Fin.ext (by match a with | ⟨0, _⟩ => rfl | ⟨1, _⟩ => rfl | ⟨2, _⟩ => rfl | ⟨3, _⟩ => rfl)

theorem ridx_v0 (b : Fin 2) (n : Fin 16) (r c : Fin 2048) (d : Fin 64) : ridx_main_v0 (ix4 b n r c) d = ix4 b n c d :=
  funext fun a => Fin.ext (by match a with | ⟨0, _⟩ => rfl | ⟨1, _⟩ => rfl | ⟨2, _⟩ => rfl | ⟨3, _⟩ => rfl)

theorem idx_row (b : Fin 2) (n : Fin 16) (r c : Fin 2048) : idx_main_v7 (idx_main_v8 (ix4 b n r c)) = ix3 b n r :=
  funext fun a => Fin.ext (by match a with | ⟨0, _⟩ => rfl | ⟨1, _⟩ => rfl | ⟨2, _⟩ => rfl)

theorem idx_row' (b : Fin 2) (n : Fin 16) (r c : Fin 2048) : idx_main_v12 (idx_main_v13 (ix4 b n r c)) = ix3 b n r :=
  funext fun a => Fin.ext (by match a with | ⟨0, _⟩ => rfl | ⟨1, _⟩ => rfl | ⟨2, _⟩ => rfl)

theorem idx_sum (b : Fin 2) (n : Fin 16) (r c : Fin 2048) : idx_main_v11 (ix3 b n r) c = ix4 b n r c :=
  funext fun a => Fin.ext (by match a with | ⟨0, _⟩ => rfl | ⟨1, _⟩ => rfl | ⟨2, _⟩ => rfl | ⟨3, _⟩ => rfl)

theorem lidx_v16 (b : Fin 2) (n : Fin 16) (r : Fin 2048) (d : Fin 64) (c : Fin 2048) : lidx_main_v16 (ix4 b n r d) c = ix4 b n r c :=
  funext fun a => Fin.ext (by match a with | ⟨0, _⟩ => rfl | ⟨1, _⟩ => rfl | ⟨2, _⟩ => rfl | ⟨3, _⟩ => rfl)

theorem ridx_v16 (b : Fin 2) (n : Fin 16) (r : Fin 2048) (d : Fin 64) (c : Fin 2048) : ridx_main_v16 (ix4 b n r d) c = ix4 b n c d :=
  funext fun a => Fin.ext (by match a with | ⟨0, _⟩ => rfl | ⟨1, _⟩ => rfl | ⟨2, _⟩ => rfl | ⟨3, _⟩ => rfl)

/-- The witness that names the index a key coordinate is inserted at. -/
theorem red : S2x16x2048x2048.Reduces [3] S2x16x2048 := by decide

theorem lift_row (b : Fin 2) (n : Fin 16) (r : Fin 2048) (c : Fin 2048) : red.lift (ix3 b n r) c = ix4 b n r c :=
  funext fun a => Fin.ext (by match a with | ⟨0, _⟩ => rfl | ⟨1, _⟩ => rfl | ⟨2, _⟩ => rfl | ⟨3, _⟩ => rfl)

/-! ## The stages -/

/-- The score: the inner product, divided by 8. -/
theorem v2_eq (b : Fin 2) (n : Fin 16) (r c : Fin 2048) : val_main_v2 (F := Ideal) q k (ix4 b n r c) = score4 q k b n r c := by
  rw [val_main_v2_apply, val_main_v0_apply, val_main_v1_apply, val_main_cst_apply]
  simp only [lidx_v0, ridx_v0, Ideal.hostDivf_def, Ideal.ofBits_def]
  rw [Cert.Consts.ofBits_eight, Ideal.div_coe (by norm_num : (8 : ℝ) ≠ 0)]
  unfold score4 eighth
  rw [Cert.Consts.ofBits_eighth]

/-- The masked score. -/
theorem v3_eq (b : Fin 2) (n : Fin 16) (r c : Fin 2048) :
    val_main_v3 (F := Ideal) q k mk (ix4 b n r c) = maskRow (fun c' => score4 q k b n r c') (fun c' => mk (ix4 b n r c')) c := by
  rw [val_main_v3_apply, val_main_call0_v1_apply, val_main_call0_v0_apply, val_main_cst_0_apply, v2_eq]
  simp only [Ideal.ofBits_def, Cert.Consts.ofBits_neg_inf]
  rfl

/-- The row maximum. -/
theorem v6_eq (b : Fin 2) (n : Fin 16) (r : Fin 2048) :
    val_main_v6 (F := Ideal) q k mk (ix3 b n r) = rowMax (maskRow (fun c' => score4 q k b n r c') (fun c' => mk (ix4 b n r c'))) := by
  rw [val_main_v6_apply, val_main_v5_apply, val_main_cst_2_apply]
  unfold val_main_v4
  rw [Host.reduce_eq_fold_single FloatOps.maximumf _ _ reducesTo_S2x16x2048x2048_S2x16x2048_d3 red h_S_ (ix3 b n r)]
  rw [val_main_cst_1_apply]
  simp only [Ideal.ofBits_def, Cert.Consts.ofBits_neg_inf, Ideal.maximumf_def]
  rw [max_eq_right bot_le]
  show (Finset.univ : Finset (Fin 2048)).fold max ⊥ (fun c' : Fin 2048 => val_main_v3 (F := Ideal) q k mk (red.lift (ix3 b n r) c')) = _
  unfold rowMax
  exact Finset.fold_congr fun c' _ =>
    (congrArg (val_main_v3 (F := Ideal) q k mk) (lift_row b n r c')).trans (v3_eq q k mk b n r c')

/-- An entry's exponential. -/
theorem v10_eq (b : Fin 2) (n : Fin 16) (r c : Fin 2048) :
    val_main_v10 (F := Ideal) q k mk (ix4 b n r c) = rowExp (maskRow (fun c' => score4 q k b n r c') (fun c' => mk (ix4 b n r c'))) c := by
  rw [val_main_v10_apply, val_main_v9_apply, v3_eq, val_main_v8_apply, val_main_v7_apply, idx_row, v6_eq]
  simp only [Ideal.hostUnary_exp_def, Ideal.subf_def]
  rfl

/-- The row sum. -/
theorem v11_eq (b : Fin 2) (n : Fin 16) (r : Fin 2048) :
    val_main_v11 (F := Ideal) q k mk (ix3 b n r) = rowSum (maskRow (fun c' => score4 q k b n r c') (fun c' => mk (ix4 b n r c'))) := by
  rw [val_main_v11_apply, val_main_cst_3_apply]
  simp only [Ideal.ofBits_def, Ideal.ofBits_zero_f32, zero_add]
  unfold rowSum
  refine Finset.sum_congr rfl fun c' _ => ?_
  rw [idx_sum, v10_eq]

/-- The weight: the reference's quotient is the reciprocal form, the scores being reals. -/
theorem v15_eq (hq : ∀ i, ∃ x : ℝ, q i = (x : EReal)) (hk : ∀ i, ∃ x : ℝ, k i = (x : EReal))
    (b : Fin 2) (n : Fin 16) (r c : Fin 2048) :
    val_main_v15 (F := Ideal) q k mk (ix4 b n r c) = weight (fun c' => score4 q k b n r c') (fun c' => mk (ix4 b n r c')) c := by
  rw [val_main_v15_apply, val_main_call1_v1_apply, val_main_call1_v0_apply, val_main_cst_4_apply, val_main_v14_apply, v10_eq,
    val_main_v13_apply, val_main_v12_apply, idx_row', v11_eq]
  simp only [Ideal.hostDivf_def, Ideal.ofBits_def, Ideal.ofBits_zero_f32]
  exact quotient_eq_weight (fun c' => score4 q k b n r c') (fun c' => mk (ix4 b n r c'))
    (fun c' => score4_real q k hq hk b n r c') c

/-! ## The results -/

/-- The reference's second result is the attention weights. -/
theorem attn_eq (hq : ∀ i, ∃ x : ℝ, q i = (x : EReal)) (hk : ∀ i, ∃ x : ℝ, k i = (x : EReal)) :
    val_main_v15 (F := Ideal) q k mk = attn4 q k mk := by
  funext i
  obtain ⟨b, n, r, c, rfl⟩ : ∃ (b : Fin 2) (n : Fin 16) (r c : Fin 2048), i = ix4 b n r c := ⟨i 0, i 1, i 2, i 3, eq_ix4 i⟩
  exact v15_eq q k mk hq hk b n r c

/-- Its first result is the weights applied to the values. -/
theorem out_eq (hq : ∀ i, ∃ x : ℝ, q i = (x : EReal)) (hk : ∀ i, ∃ x : ℝ, k i = (x : EReal)) :
    val_main_v16 (F := Ideal) q k v mk = out4 q k v mk := by
  funext i
  obtain ⟨b, n, r, d, rfl⟩ : ∃ (b : Fin 2) (n : Fin 16) (r : Fin 2048) (d : Fin 64), i = ix4 b n r d := ⟨i 0, i 1, i 2, i 3, eq_ix4 i⟩
  rw [val_main_v16_apply]
  show _ = ∑ c : Fin 2048, attn4 q k mk (ix4 b n r c) * v (ix4 b n c d)
  refine Finset.sum_congr rfl fun c _ => ?_
  rw [lidx_v16, ridx_v16, v15_eq q k mk hq hk]
  rfl

end Cert.ReferenceIdeal.RefValue

end
-- ==== Proof.Payload.lean ====
/- The kernel body's arithmetic, read at an index.

   A grid point loads a block of 512 query rows, the slab's 2048 keys and values, and the 512 x 2048 block of mask
   words. The score matrix is the matrix product of the query block with the keys (contracting the 64 features; the
   narrowing to bf16 before it is the identity on the extended reals) times 1/8; a mask word that is not zero sends its
   entry to minus infinity (the named constant); the row maximum, the exponentials, the row sum, the reciprocal and
   the final select are row softmax in the reciprocal form: entry `(r, c)` of the block of weights is `weight` of row
   `r`'s scores and mask bits at `c`. The output block is the matrix product of the weights with the values. -/
import proofs.«419633_j62277025792399_3_alg».proof.Proof.Gen.KernelIdeal.Skeleton
import proofs.«419633_j62277025792399_3_alg».proof.Proof.Spec
import proofs.«419633_j62277025792399_3_alg».proof.Proof.Consts
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Body

open Cert.KernelIdeal Cert.KernelIdeal.Gen Idealize.ShloMosaic Idealize.ShloMosaic.ValueIdx Cert.Attn

/-! ## Reshapes between a block and its leading unit axis -/

theorem drop_q (x : Vec Ideal S1x512x64 .f32) (r : Fin 512) (d : Fin 64) :
    shapeCast S512x64 x shapeCasts_S1x512x64_S512x64 (ix2 r d) = x (ix3 (0 : Fin 1) r d) :=
  shapeCast_apply x _ _ _ (by
    rw [Shape.rowMajor_val_three, Shape.rowMajor_val_two]
    show ((0 : ℕ) * 512 + r.val) * 64 + d.val = r.val * 64 + d.val; omega)

theorem drop_kv (x : Vec Ideal S1x2048x64 .f32) (c : Fin 2048) (d : Fin 64) :
    shapeCast S2048x64 x shapeCasts_S1x2048x64_S2048x64 (ix2 c d) = x (ix3 (0 : Fin 1) c d) :=
  shapeCast_apply x _ _ _ (by
    rw [Shape.rowMajor_val_three, Shape.rowMajor_val_two]
    show ((0 : ℕ) * 2048 + c.val) * 64 + d.val = c.val * 64 + d.val; omega)

theorem drop_m (x : Vec Ideal S1x512x2048 .i32) (r : Fin 512) (c : Fin 2048) :
    shapeCast S512x2048 x shapeCasts_S1x512x2048_S512x2048 (ix2 r c) = x (ix3 (0 : Fin 1) r c) :=
  shapeCast_apply x _ _ _ (by
    rw [Shape.rowMajor_val_three, Shape.rowMajor_val_two]
    show ((0 : ℕ) * 512 + r.val) * 2048 + c.val = r.val * 2048 + c.val; omega)

theorem add_a {α : Type} (y : S512x2048.Idx → α) (r : Fin 512) (c : Fin 2048) :
    shapeCast S1x512x2048 y shapeCasts_S512x2048_S1x512x2048 (ix3 (0 : Fin 1) r c) = y (ix2 r c) :=
  shapeCast_apply y _ _ _ (by
    rw [Shape.rowMajor_val_three, Shape.rowMajor_val_two]
    show r.val * 2048 + c.val = ((0 : ℕ) * 512 + r.val) * 2048 + c.val; omega)

theorem add_o {α : Type} (y : S512x64.Idx → α) (r : Fin 512) (d : Fin 64) :
    shapeCast S1x512x64 y shapeCasts_S512x64_S1x512x64 (ix3 (0 : Fin 1) r d) = y (ix2 r d) :=
  shapeCast_apply y _ _ _ (by
    rw [Shape.rowMajor_val_three, Shape.rowMajor_val_two]
    show r.val * 64 + d.val = ((0 : ℕ) * 512 + r.val) * 64 + d.val; omega)

/-! ## The two matrix products' operand indices -/

theorem qk_lhs_0 (i : S512x2048.Idx) (p : dot_S512x64_S2048x64_S512x2048_1_1_0_0_n_n.contr.Idx) :
    (dot_S512x64_S2048x64_S512x2048_1_1_0_0_n_n.lhsIdx i p 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (p : dot_S512x64_S2048x64_S512x2048_1_1_0_0_n_n.contr.Idx) :
    (dot_S512x64_S2048x64_S512x2048_1_1_0_0_n_n.lhsIdx i p 1).val = (p ⟨0, by decide⟩).val :=
  dot_S512x64_S2048x64_S512x2048_1_1_0_0_n_n.lhsIdx_val_of_single rfl i p
theorem qk_rhs_0 (i : S512x2048.Idx) (p : dot_S512x64_S2048x64_S512x2048_1_1_0_0_n_n.contr.Idx) :
    (dot_S512x64_S2048x64_S512x2048_1_1_0_0_n_n.rhsIdx i p 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (p : dot_S512x64_S2048x64_S512x2048_1_1_0_0_n_n.contr.Idx) :
    (dot_S512x64_S2048x64_S512x2048_1_1_0_0_n_n.rhsIdx i p 1).val = (p ⟨0, by decide⟩).val :=
  dot_S512x64_S2048x64_S512x2048_1_1_0_0_n_n.rhsIdx_val_of_single rfl i p

theorem av_lhs_0 (i : S512x64.Idx) (p : dot_S512x2048_S2048x64_S512x64_1_0_0_1_n_n.contr.Idx) :
    (dot_S512x2048_S2048x64_S512x64_1_0_0_1_n_n.lhsIdx i p 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem av_lhs_1 (i : S512x64.Idx) (p : dot_S512x2048_S2048x64_S512x64_1_0_0_1_n_n.contr.Idx) :
    (dot_S512x2048_S2048x64_S512x64_1_0_0_1_n_n.lhsIdx i p 1).val = (p ⟨0, by decide⟩).val :=
  dot_S512x2048_S2048x64_S512x64_1_0_0_1_n_n.lhsIdx_val_of_single rfl i p
theorem av_rhs_0 (i : S512x64.Idx) (p : dot_S512x2048_S2048x64_S512x64_1_0_0_1_n_n.contr.Idx) :
    (dot_S512x2048_S2048x64_S512x64_1_0_0_1_n_n.rhsIdx i p 0).val = (p ⟨0, by decide⟩).val :=
  dot_S512x2048_S2048x64_S512x64_1_0_0_1_n_n.rhsIdx_val_of_single rfl i p
theorem av_rhs_1 (i : S512x64.Idx) (p : dot_S512x2048_S2048x64_S512x64_1_0_0_1_n_n.contr.Idx) :
    (dot_S512x2048_S2048x64_S512x64_1_0_0_1_n_n.rhsIdx i p 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## Scores and mask bits of a block -/

/-- The block of scaled scores, as the body computes it from the query block and the keys. -/
def scores (x0 : Vec Ideal S1x512x64 .f32) (x1 : Vec Ideal S1x2048x64 .f32) : FVec Ideal S512x2048 .f32 :=
  mulf (matmul dot_S512x64_S2048x64_S512x2048_1_1_0_0_n_n none
      (truncf .bf16 (shapeCast S512x64 x0 shapeCasts_S1x512x64_S512x64) bitsLt_bf16_f32)
      (truncf .bf16 (shapeCast S2048x64 x1 shapeCasts_S1x2048x64_S2048x64) bitsLt_bf16_f32)
      (constant S512x2048 .f32 0x00000000#32))
    (broadcast S512x2048 (Scalar.ofBits .f32 0x3E000000#32))

/-- Entry `(r, c)`: the inner product of query row `r` with key `c`, times 1/8. -/
theorem scores_at (x0 : Vec Ideal S1x512x64 .f32) (x1 : Vec Ideal S1x2048x64 .f32) (r : Fin 512) (c : Fin 2048) :
    scores x0 x1 (ix2 r c) = (∑ d : Fin 64, x0 (ix3 (0 : Fin 1) r d) * x1 (ix3 (0 : Fin 1) c d)) * eighth := by
  unfold scores eighth
  rw [mulf_apply, broadcast_apply]
  refine congrArg (· * Ideal.ofBits .f32 0x3E000000#32) ?_
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r c) ((contrEquiv1 dot_S512x64_S2048x64_S512x2048_1_1_0_0_n_n 64 rfl rfl).symm d) = ix2 r d := funext fun a => Fin.ext (by
    match a with
    | ⟨0, _⟩ => exact qk_lhs_0 _ _
    | ⟨1, _⟩ => exact (qk_lhs_1 _ _).trans hk)
  have er : dot_S512x64_S2048x64_S512x2048_1_1_0_0_n_n.rhsIdx (ix2 r c) ((contrEquiv1 dot_S512x64_S2048x64_S512x2048_1_1_0_0_n_n 64 rfl rfl).symm d) = ix2 c d := funext fun a => Fin.ext (by
    match a with
    | ⟨0, _⟩ => exact qk_rhs_0 _ _
    | ⟨1, _⟩ => exact (qk_rhs_1 _ _).trans hk)
  rw [el, er, truncf_apply, truncf_apply, drop_q, drop_kv]

/-- The block of mask bits: a mask word that is not zero. -/
def bits (x3 : Vec Ideal S1x512x2048 .i32) : IVec S512x2048 1 :=
  cmpi .ne (shapeCast S512x2048 x3 shapeCasts_S1x512x2048_S512x2048) (constantI S512x2048 32 0#32)

theorem bits_at (x3 : Vec Ideal S1x512x2048 .i32) (r : Fin 512) (c : Fin 2048) :
    bits x3 (ix2 r c) = IntOp.cmpi .ne (x3 (ix3 (0 : Fin 1) r c)) 0#32 := by
  show IntOp.cmpi .ne (shapeCast S512x2048 x3 shapeCasts_S1x512x2048_S512x2048 (ix2 r c)) 0#32 = _
  rw [drop_m]

/-! ## Row softmax of a block of scores -/

/-- The key coordinate inserted into a row index. -/
theorem lift_row (r : Fin 512) (c : Fin 2048) : reduces_S512x2048_S512.lift (ix1 r) c = ix2 r c :=
  funext fun a => Fin.ext (by match a with | ⟨0, _⟩ => rfl | ⟨1, _⟩ => rfl)

/-- A column broadcast along the keys reads its row. -/
theorem bcast_at (z : FVec Ideal S512x1 .f32) (r : Fin 512) (c : Fin 2048) :
    broadcastTo S512x2048 z broadcasts_S512x1_S512x2048 (ix2 r c) = z (ix2 r (0 : Fin 1)) :=
  broadcastTo_apply z _ _ _ (fun a => match a with
    | ⟨0, _⟩ => by show r.val = if (512 : Nat) = 1 then 0 else r.val; rw [if_neg (by decide)]
    | ⟨1, _⟩ => by show (0 : ℕ) = if (1 : Nat) = 1 then 0 else c.val; rw [if_pos rfl])

/-- A row vector viewed as a column reads the same entry. -/
theorem col_at (y : FVec Ideal S512 .f32) (r : Fin 512) :
    shapeCast S512x1 y shapeCasts_S512_S512x1 (ix2 r (0 : Fin 1)) = y (ix1 r) :=
  shapeCast_apply y _ _ _ (by
    rw [Shape.rowMajor_val_one, Shape.rowMajor_val_two]
    show r.val = r.val * 1 + 0; omega)

/-- The masked scores. -/
def msk (X : FVec Ideal S512x2048 .f32) (B : IVec S512x2048 1) : FVec Ideal S512x2048 .f32 :=
  select B (broadcast S512x2048 (Named.named κ "neg_big" 0xFF333332#32)) X

theorem msk_at (X : FVec Ideal S512x2048 .f32) (B : IVec S512x2048 1) (r : Fin 512) (c : Fin 2048) :
    msk X B (ix2 r c) = maskRow (fun c' => X (ix2 r c')) (fun c' => B (ix2 r c')) c := by
  unfold msk maskRow
  rw [select_apply, broadcast_apply,
    IdealRules.named_const.ideal_named_scalar Cert.KernelIdeal.κ "neg_big" (φ := .f32) 0xFF333332#32 ⊥ rfl]

/-- The row maxima. -/
def rmx (X : FVec Ideal S512x2048 .f32) (B : IVec S512x2048 1) : FVec Ideal S512 .f32 :=
  multiReduction .maximumf [1] S512 (msk X B) 0xFF800000#32 reduces_S512x2048_S512 (.inl rfl) rfl

theorem rmx_at (X : FVec Ideal S512x2048 .f32) (B : IVec S512x2048 1) (r : Fin 512) :
    rmx X B (ix1 r) = rowMax (maskRow (fun c' => X (ix2 r c')) (fun c' => B (ix2 r c'))) := by
  unfold rmx
  refine (Ideal.multiReduction_maximumf_single (msk X B) 0xFF800000#32 reduces_S512x2048_S512 (.inl rfl) rfl (ix1 r)).trans ?_
  simp only [Ideal.ofBits_def, Cert.Consts.ofBits_neg_inf]
  show (Finset.univ : Finset (Fin 2048)).fold max ⊥ (fun c' : Fin 2048 => msk X B (reduces_S512x2048_S512.lift (ix1 r) c')) = _
  unfold rowMax
  exact Finset.fold_congr fun c' _ => (congrArg (msk X B) (lift_row r c')).trans (msk_at X B r c')

/-- The exponentials. -/
def pexp (X : FVec Ideal S512x2048 .f32) (B : IVec S512x2048 1) : FVec Ideal S512x2048 .f32 :=
  exp (subf (msk X B) (broadcastTo S512x2048 (shapeCast S512x1 (rmx X B) shapeCasts_S512_S512x1) broadcasts_S512x1_S512x2048))

theorem pexp_at (X : FVec Ideal S512x2048 .f32) (B : IVec S512x2048 1) (r : Fin 512) (c : Fin 2048) :
    pexp X B (ix2 r c) = rowExp (maskRow (fun c' => X (ix2 r c')) (fun c' => B (ix2 r c'))) c := by
  unfold pexp rowExp
  show Ideal.exp (msk X B (ix2 r c) - broadcastTo S512x2048 (shapeCast S512x1 (rmx X B) shapeCasts_S512_S512x1) broadcasts_S512x1_S512x2048 (ix2 r c)) = _
  rw [msk_at, bcast_at, col_at, rmx_at]

/-- The row sums. -/
def rsm (X : FVec Ideal S512x2048 .f32) (B : IVec S512x2048 1) : FVec Ideal S512 .f32 :=
  multiReduction .add [1] S512 (pexp X B) 0x00000000#32 reduces_S512x2048_S512 (.inl rfl) rfl

theorem rsm_at (X : FVec Ideal S512x2048 .f32) (B : IVec S512x2048 1) (r : Fin 512) :
    rsm X B (ix1 r) = rowSum (maskRow (fun c' => X (ix2 r c')) (fun c' => B (ix2 r c'))) := by
  unfold rsm
  refine (Ideal.multiReduction_add_single (pexp X B) 0x00000000#32 reduces_S512x2048_S512 (.inl rfl) rfl (ix1 r)).trans ?_
  show (∑ c' : Fin 2048, pexp X B (reduces_S512x2048_S512.lift (ix1 r) c')) = _
  unfold rowSum
  exact Finset.sum_congr rfl fun c' _ => (congrArg (pexp X B) (lift_row r c')).trans (pexp_at X B r c')

/-- The block of weights, as the body computes it from scores and bits. -/
def smx (X : FVec Ideal S512x2048 .f32) (B : IVec S512x2048 1) : FVec Ideal S512x2048 .f32 :=
  select B (broadcast S512x2048 (Scalar.ofBits .f32 0x00000000#32))
    (mulf (pexp X B)
      (broadcastTo S512x2048
        (divf (broadcast S512x1 (Scalar.ofBits .f32 0x3F800000#32)) (shapeCast S512x1 (rsm X B) shapeCasts_S512_S512x1))
        broadcasts_S512x1_S512x2048))

/-- Entry `(r, c)` is the row's weight at `c`. -/
theorem smx_at (X : FVec Ideal S512x2048 .f32) (B : IVec S512x2048 1) (r : Fin 512) (c : Fin 2048) :
    smx X B (ix2 r c) = weight (fun c' => X (ix2 r c')) (fun c' => B (ix2 r c')) c := by
  unfold smx weight
  rw [select_apply, broadcast_apply, mulf_apply, bcast_at, divf_apply, broadcast_apply, col_at, rsm_at, pexp_at]
  show Scalar.select (B (ix2 r c)) (Ideal.ofBits .f32 0x00000000#32) (_ * Ideal.div (Ideal.ofBits .f32 0x3F800000#32) _) = _
  rw [Ideal.ofBits_zero_f32, Cert.Consts.ofBits_one]

/-! ## The payloads -/

/-- The body's block of weights is row softmax of its scores and bits. -/
theorem pay2_eq (x0 : Vec Ideal S1x512x64 .f32) (x1 : Vec Ideal S1x2048x64 .f32) (x3 : Vec Ideal S1x512x2048 .i32) :
    k0_pay2 (F := Ideal) x0 x1 x3 = smx (scores x0 x1) (bits x3) := rfl

/-- Entry `(r, c)` of the block of weights, from the loaded blocks. -/
theorem pay2_at (x0 : Vec Ideal S1x512x64 .f32) (x1 : Vec Ideal S1x2048x64 .f32) (x3 : Vec Ideal S1x512x2048 .i32)
    (r : Fin 512) (c : Fin 2048) :
    k0_pay2 (F := Ideal) x0 x1 x3 (ix2 r c)
      = weight (fun c' => (∑ d : Fin 64, x0 (ix3 (0 : Fin 1) r d) * x1 (ix3 (0 : Fin 1) c' d)) * eighth)
          (fun c' => IntOp.cmpi .ne (x3 (ix3 (0 : Fin 1) r c')) 0#32) c := by
  rw [pay2_eq, smx_at]
  simp only [scores_at, bits_at]

/-- What is stored to the weights' window: the same, under the leading unit axis. -/
theorem pay3_at (x0 : Vec Ideal S1x512x64 .f32) (x1 : Vec Ideal S1x2048x64 .f32) (x3 : Vec Ideal S1x512x2048 .i32)
    (r : Fin 512) (c : Fin 2048) :
    k0_pay3 (F := Ideal) x0 x1 x3 (ix3 (0 : Fin 1) r c) = k0_pay2 (F := Ideal) x0 x1 x3 (ix2 r c) := by
  unfold k0_pay3
  exact add_a _ r c

/-- What is stored to the output's window: the weights applied to the values. -/
theorem pay1_at (x0 : Vec Ideal S1x512x64 .f32) (x1 x2 : Vec Ideal S1x2048x64 .f32) (x3 : Vec Ideal S1x512x2048 .i32)
    (r : Fin 512) (d : Fin 64) :
    k0_pay1 (F := Ideal) (k0_pay4 x2) (k0_pay5 x0 x1 x3) (ix3 (0 : Fin 1) r d)
      = ∑ c : Fin 2048, k0_pay2 (F := Ideal) x0 x1 x3 (ix2 r c) * x2 (ix3 (0 : Fin 1) c d) := by
  unfold k0_pay1 k0_pay4 k0_pay5
  refine (add_o _ r d).trans ?_
  simp only [matmul]
  rw [Ideal.matmul_constant_zero_apply, ← Equiv.sum_comp (contrEquiv1 dot_S512x2048_S2048x64_S512x64_1_0_0_1_n_n 2048 rfl rfl).symm]
  refine Finset.sum_congr rfl fun c _ => ?_
  have hk := contrEquiv1_symm_val dot_S512x2048_S2048x64_S512x64_1_0_0_1_n_n 2048 rfl rfl c
  have el : dot_S512x2048_S2048x64_S512x64_1_0_0_1_n_n.lhsIdx (ix2 r d) ((contrEquiv1 dot_S512x2048_S2048x64_S512x64_1_0_0_1_n_n 2048 rfl rfl).symm c) = ix2 r c := funext fun a => Fin.ext (by
    match a with
    | ⟨0, _⟩ => exact av_lhs_0 _ _
    | ⟨1, _⟩ => exact (av_lhs_1 _ _).trans hk)
  have er : dot_S512x2048_S2048x64_S512x64_1_0_0_1_n_n.rhsIdx (ix2 r d) ((contrEquiv1 dot_S512x2048_S2048x64_S512x64_1_0_0_1_n_n 2048 rfl rfl).symm c) = ix2 c d := funext fun a => Fin.ext (by
    match a with
    | ⟨0, _⟩ => exact (av_rhs_0 _ _).trans hk
    | ⟨1, _⟩ => exact av_rhs_1 _ _)
  rw [el, er, truncf_apply, truncf_apply, drop_kv]

end Cert.KernelIdeal.Body

end
-- ==== Proof.KernelValue.lean ====
/- What the kernel's two result arrays hold after the run, as the specification's functions of the arguments.

   The grid has 32 x 4 points: point `(s, l)` works on slab `s` and query rows `512 l .. 512 l + 511`. Its query
   and mask blocks start at row `512 l` of slab `s`; its key and value blocks are the whole slab. So the block of
   weights it writes back is the restriction to its rectangle of ONE function of the arrays the region finds, the slab
   form of the attention weights (Spec.lean), and likewise the output block. The 128 rectangles tile each result
   array, hence each array ends at that function. The region finds the merged (32-slab) arrays, which the host lines
   before it make from the arguments by reshape (and, for the mask, by widening each bit to a word, which the body
   turns back into the bit by comparing with zero); the host lines after it split the slab axis again. Reshaping
   commutes with the slabwise function (Spec.lean), which gives the four-axis functions of the arguments. -/
import proofs.«419633_j62277025792399_3_alg».proof.Proof.Gen.KernelIdeal.Frame
import proofs.«419633_j62277025792399_3_alg».proof.Proof.Payload
import proofs.«419633_j62277025792399_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Body Cert.Attn
open Idealize.ShloMosaic Idealize.ShloMosaic.TcCoe Idealize.ShloMosaic.ValueIdx Idealize.SL.Sem Idealize.ShloMosaic.StableHlo
open Idealize.ShloMosaic.Pipeline (Dat)

/-! ## A block of the body's results, over arrays and blocks as variables -/

section Block

variable (Aq Ak Av : Q3.Idx → EReal) (Am : A3.Idx → BitVec 32)
  (x0 : Vec Ideal S1x512x64 .f32) (x1 x2 : Vec Ideal S1x2048x64 .f32) (x3 : Vec Ideal S1x512x2048 .i32)
  (s l : ℕ) (hs : s < 32) (hl : l < 4)

/-- If the loaded blocks are the rows `512 l ..` of slab `s` (queries, mask words) and the whole slab (keys), the
    body's weight at `(r, c)` is the slab form's at `(s, 512 l + r, c)`. -/
theorem weight_block
    (h0 : ∀ (r : Fin 512) (d : Fin 64), x0 (ix3 (0 : Fin 1) r d) = Aq (ix3 ⟨s, hs⟩ ⟨l * 512 + r.val, by have := r.isLt; omega⟩ d))
    (h1 : ∀ (c : Fin 2048) (d : Fin 64), x1 (ix3 (0 : Fin 1) c d) = Ak (ix3 ⟨s, hs⟩ c d))
    (h3 : ∀ (r : Fin 512) (c : Fin 2048), x3 (ix3 (0 : Fin 1) r c) = Am (ix3 ⟨s, hs⟩ ⟨l * 512 + r.val, by have := r.isLt; omega⟩ c))
    (r : Fin 512) (c : Fin 2048) :
    k0_pay2 (F := Ideal) x0 x1 x3 (ix2 r c)
      = attn3 Aq Ak (fun j => IntOp.cmpi .ne (Am j) 0#32) (ix3 ⟨s, hs⟩ ⟨l * 512 + r.val, by have := r.isLt; omega⟩ c) := by
  rw [pay2_at]
  simp only [h0, h1, h3]
  rfl

/-- The block stored to the weights' window. -/
theorem attn_block
    (h0 : ∀ (r : Fin 512) (d : Fin 64), x0 (ix3 (0 : Fin 1) r d) = Aq (ix3 ⟨s, hs⟩ ⟨l * 512 + r.val, by have := r.isLt; omega⟩ d))
    (h1 : ∀ (c : Fin 2048) (d : Fin 64), x1 (ix3 (0 : Fin 1) c d) = Ak (ix3 ⟨s, hs⟩ c d))
    (h3 : ∀ (r : Fin 512) (c : Fin 2048), x3 (ix3 (0 : Fin 1) r c) = Am (ix3 ⟨s, hs⟩ ⟨l * 512 + r.val, by have := r.isLt; omega⟩ c))
    (y : S1x512x2048.Idx) :
    k0_pay3 (F := Ideal) x0 x1 x3 y
      = attn3 Aq Ak (fun j => IntOp.cmpi .ne (Am j) 0#32)
          (ix3 ⟨s, hs⟩ ⟨l * 512 + (y 1).val, by have : (y 1).val < 512 := (y 1).isLt; omega⟩ (y 2)) := by
  obtain ⟨z, r, c, rfl⟩ : ∃ (z : Fin 1) (r : Fin 512) (c : Fin 2048), y = ix3 z r c := ⟨y 0, y 1, y 2, eq_ix3 y⟩
  obtain rfl : z = 0 := Subsingleton.elim _ _
  rw [pay3_at]
  exact weight_block Aq Ak Am x0 x1 x3 s l hs hl h0 h1 h3 r c

/-- The block stored to the output's window. -/
theorem out_block
    (h0 : ∀ (r : Fin 512) (d : Fin 64), x0 (ix3 (0 : Fin 1) r d) = Aq (ix3 ⟨s, hs⟩ ⟨l * 512 + r.val, by have := r.isLt; omega⟩ d))
    (h1 : ∀ (c : Fin 2048) (d : Fin 64), x1 (ix3 (0 : Fin 1) c d) = Ak (ix3 ⟨s, hs⟩ c d))
    (h2 : ∀ (c : Fin 2048) (d : Fin 64), x2 (ix3 (0 : Fin 1) c d) = Av (ix3 ⟨s, hs⟩ c d))
    (h3 : ∀ (r : Fin 512) (c : Fin 2048), x3 (ix3 (0 : Fin 1) r c) = Am (ix3 ⟨s, hs⟩ ⟨l * 512 + r.val, by have := r.isLt; omega⟩ c))
    (y : S1x512x64.Idx) :
    k0_pay1 (F := Ideal) (k0_pay4 x2) (k0_pay5 x0 x1 x3) y
      = out3 Aq Ak Av (fun j => IntOp.cmpi .ne (Am j) 0#32)
          (ix3 ⟨s, hs⟩ ⟨l * 512 + (y 1).val, by have : (y 1).val < 512 := (y 1).isLt; omega⟩ (y 2)) := by
  obtain ⟨z, r, d, rfl⟩ : ∃ (z : Fin 1) (r : Fin 512) (d : Fin 64), y = ix3 z r d := ⟨y 0, y 1, y 2, eq_ix3 y⟩
  obtain rfl : z = 0 := Subsingleton.elim _ _
  rw [pay1_at]
  show _ = ∑ c : Fin 2048, attn3 Aq Ak (fun j => IntOp.cmpi .ne (Am j) 0#32) (ix3 ⟨s, hs⟩ ⟨l * 512 + r.val, by have := r.isLt; omega⟩ c)
      * Av (ix3 ⟨s, hs⟩ c d)
  exact Finset.sum_congr rfl fun c _ => by rw [weight_block Aq Ak Am x0 x1 x3 s l hs hl h0 h1 h3 r c, h2]

end Block

variable (m : (ℓ : Loc nD τ sig) → Buf (Elt Ideal) ℓ) (ρ : Dev nD → PrngReg)

/-! ## The arrays the region finds -/

theorem V_q (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

theorem V_k (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

theorem V_v (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

theorem V_mask (c : Dev nD) : (V m c main_v4 : S32x2048x2048.Idx → BitVec 32)
    = extui 32 (shapeCast S32x2048x2048 (m ((c : Thread nD τ).loc main_arg3)) shapeCasts_S2x16x2048x2048_S32x2048x2048) natLt_1_32 := by
  show StableHlo.after hostOps0 (fun b => m (c, b)) (Proc.devRef .tc main_v4) = _
  after_results
  rfl

/-! ## The two results over the arrays the region finds -/

/-- The weights: the slab form over the merged queries and keys, the mask bit a mask word that is not zero. -/
def attnOf (c : Dev nD) : S32x2048x2048.Idx → EReal :=
  attn3 (V m c main_v0) (V m c main_v1) (fun j => IntOp.cmpi .ne (V m c main_v4 j) 0#32)

/-- The output. -/
def outOf (c : Dev nD) : S32x2048x64.Idx → EReal :=
  out3 (V m c main_v0) (V m c main_v1) (V m c main_v2) (fun j => IntOp.cmpi .ne (V m c main_v4 j) 0#32)

theorem hz3 : (![0, 0, 0] : Fin 3 → Nat) = fun _ => 0 := funext fun a => by fin_cases a <;> rfl

/-- The printed index maps over the grid: every window's block sits at the weights' window's slab; the query, mask and
    output blocks at its row block; the key and value blocks at the slab's start. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (2 : Fin 3) = 0 ∧ win0_5.index t (0 : Fin 3) < 32 ∧ win0_5.index t (1 : Fin 3) < 4 :=
  (by decide +kernel : ∀ t : Fin grid0.N, _)

/-- Every (slab, row block) is some point's. -/
theorem idx_onto : ∀ (s : Fin 32) (l : Fin 4), ∃ t : Fin cfg0.N, win0_5.index t = ![s.val, l.val, 0] :=
  (by decide +kernel : ∀ (s : Fin 32) (l : Fin 4), ∃ t : Fin grid0.N, win0_5.index t = ![s.val, l.val, 0])

/-- WHAT POINT `t` WRITES BACK to the weights' array is its block of `attnOf`. -/
theorem flushed_attn (c : Dev nD) (t : Fin cfg0.N) :
    (dats m 0 c).flushed 5 t = ((cfg0.win 5).blk t).view.read (Elt Ideal) (attnOf m c) := by
  show (cfg0.win 5).cut (grid0.coords t) ((dats m 0 c).after 5 t) = _
  rw [after0_5]
  unfold out0_5
  rw [View.canon_unit_zero hz3]
  simp only [View.ld_unit_zero (S := S1x512x64) hz3, View.ld_unit_zero (S := S1x2048x64) hz3, View.ld_unit_zero (S := S1x512x2048) hz3]
  obtain ⟨e00, e01, e02, e10, e11, e12, e20, e21, e22, e30, e31, e32, e40, e41, e42, e52, hs, hl⟩ := idx_facts t
  funext y
  show k0_pay3 (F := Ideal) (iblk m c 0 t) (iblk m c 1 t) (iblk m c 3 t) y = attnOf m c (((cfg0.win 5).blk t).view.emb y)
  refine (attn_block (V m c main_v0) (V m c main_v1) (V m c main_v4) (iblk m c 0 t) (iblk m c 1 t) (iblk m c 3 t)
    (win0_5.index t (0 : Fin 3)) (win0_5.index t (1 : Fin 3)) hs hl ?_ ?_ ?_ y).trans ?_
  · intro r d
    show V m c main_v0 (((cfg0.win 0).blk t).view.emb (ix3 (0 : Fin 1) r d)) = V m c main_v0 _
    refine congrArg (V m c main_v0) (funext fun a => Fin.ext ?_)
    match a with
    | ⟨0, _⟩ => show win0_0.index t (0 : Fin 3) * 1 + 1 * 0 = win0_5.index t (0 : Fin 3); omega
    | ⟨1, _⟩ => show win0_0.index t (1 : Fin 3) * 512 + 1 * r.val = win0_5.index t (1 : Fin 3) * 512 + r.val; omega
    | ⟨2, _⟩ => show win0_0.index t (2 : Fin 3) * 64 + 1 * d.val = d.val; omega
  · intro cc d
    show V m c main_v1 (((cfg0.win 1).blk t).view.emb (ix3 (0 : Fin 1) cc d)) = V m c main_v1 _
    refine congrArg (V m c main_v1) (funext fun a => Fin.ext ?_)
    match a with
    | ⟨0, _⟩ => show win0_1.index t (0 : Fin 3) * 1 + 1 * 0 = win0_5.index t (0 : Fin 3); omega
    | ⟨1, _⟩ => show win0_1.index t (1 : Fin 3) * 2048 + 1 * cc.val = cc.val; omega
    | ⟨2, _⟩ => show win0_1.index t (2 : Fin 3) * 64 + 1 * d.val = d.val; omega
  · intro r cc
    show V m c main_v4 (((cfg0.win 3).blk t).view.emb (ix3 (0 : Fin 1) r cc)) = V m c main_v4 _
    refine congrArg (V m c main_v4) (funext fun a => Fin.ext ?_)
    match a with
    | ⟨0, _⟩ => show win0_3.index t (0 : Fin 3) * 1 + 1 * 0 = win0_5.index t (0 : Fin 3); omega
    | ⟨1, _⟩ => show win0_3.index t (1 : Fin 3) * 512 + 1 * r.val = win0_5.index t (1 : Fin 3) * 512 + r.val; omega
    | ⟨2, _⟩ => show win0_3.index t (2 : Fin 3) * 2048 + 1 * cc.val = cc.val; omega
  · refine congrArg (attnOf m c) (funext fun a => Fin.ext ?_)
    have h0 : (y 0).val < 1 := (y 0).isLt
    match a with
    | ⟨0, _⟩ => show win0_5.index t (0 : Fin 3) = win0_5.index t (0 : Fin 3) * 1 + 1 * (y 0).val; omega
    | ⟨1, _⟩ => show win0_5.index t (1 : Fin 3) * 512 + (y 1).val = win0_5.index t (1 : Fin 3) * 512 + 1 * (y 1).val; omega
    | ⟨2, _⟩ => show (y 2).val = win0_5.index t (2 : Fin 3) * 2048 + 1 * (y 2).val; omega

/-- WHAT POINT `t` WRITES BACK to the output's array is its block of `outOf`. -/
theorem flushed_out (c : Dev nD) (t : Fin cfg0.N) :
    (dats m 0 c).flushed 4 t = ((cfg0.win 4).blk t).view.read (Elt Ideal) (outOf m c) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3, View.ld_unit_zero (S := S1x512x2048) hz3]
  obtain ⟨e00, e01, e02, e10, e11, e12, e20, e21, e22, e30, e31, e32, e40, e41, e42, e52, hs, hl⟩ := idx_facts t
  funext y
  show k0_pay1 (F := Ideal) (k0_pay4 (iblk m c 2 t)) (k0_pay5 (iblk m c 0 t) (iblk m c 1 t) (iblk m c 3 t)) y
    = outOf m c (((cfg0.win 4).blk t).view.emb y)
  refine (out_block (V m c main_v0) (V m c main_v1) (V m c main_v2) (V m c main_v4) (iblk m c 0 t) (iblk m c 1 t) (iblk m c 2 t) (iblk m c 3 t)
    (win0_5.index t (0 : Fin 3)) (win0_5.index t (1 : Fin 3)) hs hl ?_ ?_ ?_ ?_ y).trans ?_
  · intro r d
    show V m c main_v0 (((cfg0.win 0).blk t).view.emb (ix3 (0 : Fin 1) r d)) = V m c main_v0 _
    refine congrArg (V m c main_v0) (funext fun a => Fin.ext ?_)
    match a with
    | ⟨0, _⟩ => show win0_0.index t (0 : Fin 3) * 1 + 1 * 0 = win0_5.index t (0 : Fin 3); omega
    | ⟨1, _⟩ => show win0_0.index t (1 : Fin 3) * 512 + 1 * r.val = win0_5.index t (1 : Fin 3) * 512 + r.val; omega
    | ⟨2, _⟩ => show win0_0.index t (2 : Fin 3) * 64 + 1 * d.val = d.val; omega
  · intro cc d
    show V m c main_v1 (((cfg0.win 1).blk t).view.emb (ix3 (0 : Fin 1) cc d)) = V m c main_v1 _
    refine congrArg (V m c main_v1) (funext fun a => Fin.ext ?_)
    match a with
    | ⟨0, _⟩ => show win0_1.index t (0 : Fin 3) * 1 + 1 * 0 = win0_5.index t (0 : Fin 3); omega
    | ⟨1, _⟩ => show win0_1.index t (1 : Fin 3) * 2048 + 1 * cc.val = cc.val; omega
    | ⟨2, _⟩ => show win0_1.index t (2 : Fin 3) * 64 + 1 * d.val = d.val; omega
  · intro cc d
    show V m c main_v2 (((cfg0.win 2).blk t).view.emb (ix3 (0 : Fin 1) cc d)) = V m c main_v2 _
    refine congrArg (V m c main_v2) (funext fun a => Fin.ext ?_)
    match a with
    | ⟨0, _⟩ => show win0_2.index t (0 : Fin 3) * 1 + 1 * 0 = win0_5.index t (0 : Fin 3); omega
    | ⟨1, _⟩ => show win0_2.index t (1 : Fin 3) * 2048 + 1 * cc.val = cc.val; omega
    | ⟨2, _⟩ => show win0_2.index t (2 : Fin 3) * 64 + 1 * d.val = d.val; omega
  · intro r cc
    show V m c main_v4 (((cfg0.win 3).blk t).view.emb (ix3 (0 : Fin 1) r cc)) = V m c main_v4 _
    refine congrArg (V m c main_v4) (funext fun a => Fin.ext ?_)
    match a with
    | ⟨0, _⟩ => show win0_3.index t (0 : Fin 3) * 1 + 1 * 0 = win0_5.index t (0 : Fin 3); omega
    | ⟨1, _⟩ => show win0_3.index t (1 : Fin 3) * 512 + 1 * r.val = win0_5.index t (1 : Fin 3) * 512 + r.val; omega
    | ⟨2, _⟩ => show win0_3.index t (2 : Fin 3) * 2048 + 1 * cc.val = cc.val; omega
  · refine congrArg (outOf m c) (funext fun a => Fin.ext ?_)
    have h0 : (y 0).val < 1 := (y 0).isLt
    match a with
    | ⟨0, _⟩ => show win0_5.index t (0 : Fin 3) = win0_4.index t (0 : Fin 3) * 1 + 1 * (y 0).val; omega
    | ⟨1, _⟩ => show win0_5.index t (1 : Fin 3) * 512 + (y 1).val = win0_4.index t (1 : Fin 3) * 512 + 1 * (y 1).val; omega
    | ⟨2, _⟩ => show (y 2).val = win0_4.index t (2 : Fin 3) * 64 + 1 * (y 2).val; omega

/-! ## The blocks tile the arrays -/

theorem mem_blk_attn (t : Fin cfg0.N) (i : S32x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v5_1).slice (win0_5.rect t)).set ↔ _
  rw [View.set_slice_whole, Rect.mem_set_unit]
  exact Iff.rfl

theorem mem_blk_out (t : Fin cfg0.N) (i : S32x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v5_0).slice (win0_4.rect t)).set ↔ _
  rw [View.set_slice_whole, Rect.mem_set_unit]
  exact Iff.rfl

/-- Row `R` of slab `s` is in the block of point `(s, R / 512)`. -/
theorem cover_attn (i : S32x2048x2048.Idx) : ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk_attn]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

theorem cover_out (i : S32x2048x64.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  obtain ⟨e00, e01, e02, e10, e11, e12, e20, e21, e22, e30, e31, e32, e40, e41, e42, e52, hs, hl⟩ := idx_facts t
  have q0 : win0_5.index t (0 : Fin 3) = (i 0).val := congrFun ht 0
  have q1 : win0_5.index t (1 : Fin 3) = (i 1).val / 512 := congrFun ht 1
  refine ⟨t, flush0_4 t, ?_⟩
  rw [mem_blk_out]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE ARRAYS after the region. -/
theorem final_attn (c : Dev nD) : (dats m 0 c).arrAt 5 cfg0.N = attnOf m c :=
  (dats m 0 c).arrAt_eq_of_cover 5 (attnOf m c) (fun t _ => flushed_attn m c t) cover_attn

theorem final_out (c : Dev nD) : (dats m 0 c).arrAt 4 cfg0.N = outOf m c :=
  (dats m 0 c).arrAt_eq_of_cover 4 (outOf m c) (fun t _ => flushed_out m c t) cover_out

/-! ## The host lines after the region -/

theorem tail_attn (c : Dev nD) :
    Pipeline.afterTail₀ cfgs (dats m) 0 (V0 m) [hostOps1] c main_v7
      = shapeCast S2x16x2048x2048 ((dats m 0 c).arrAt 5 cfg0.N) shapeCasts_S32x2048x2048_S2x16x2048x2048 := by
  unfold Pipeline.afterTail₀
  show StableHlo.after hostOps1 _ (Proc.devRef .tc main_v7) = _
  after_results
  have e := Pipeline.withArrays_arr spec0 launch0.win.arr_inj c (V0 m c) (fun w => (dats m 0 c).arrAt w cfg0.N) (5 : Fin 6)
  exact funext fun i => congrArg (fun A => shapeCast S2x16x2048x2048 A shapeCasts_S32x2048x2048_S2x16x2048x2048 i) e

theorem tail_out (c : Dev nD) :
    Pipeline.afterTail₀ cfgs (dats m) 0 (V0 m) [hostOps1] c main_v6
      = shapeCast S2x16x2048x64 ((dats m 0 c).arrAt 4 cfg0.N) shapeCasts_S32x2048x64_S2x16x2048x64 := by
  unfold Pipeline.afterTail₀
  show StableHlo.after hostOps1 _ (Proc.devRef .tc main_v6) = _
  after_results
  have e := Pipeline.withArrays_arr spec0 launch0.win.arr_inj c (V0 m c) (fun w => (dats m 0 c).arrAt w cfg0.N) (4 : Fin 6)
  exact funext fun i => congrArg (fun A => shapeCast S2x16x2048x64 A shapeCasts_S32x2048x64_S2x16x2048x64 i) e

/-! ## The results as functions of the arguments -/

/-- A mask bit widened to a word and compared with zero is the bit. -/
theorem bit_of_word (b : BitVec 1) : IntOp.cmpi .ne (b.setWidth 32) 0#32 = b := by revert b; decide

theorem maskOf_eq (c : Dev nD) :
    (fun j => IntOp.cmpi .ne (V m c main_v4 j) 0#32)
      = shapeCast S32x2048x2048 (m ((c : Thread nD τ).loc main_arg3)) shapeCasts_S2x16x2048x2048_S32x2048x2048 := by
  rw [V_mask]
  exact funext fun j => bit_of_word _

/-- The slab forms over the merged arguments. -/
theorem attnOf_eq (c : Dev nD) : attnOf m c
    = attn3 (shapeCast S32x2048x64 (m ((c : Thread nD τ).loc main_arg0)) shapeCasts_S2x16x2048x64_S32x2048x64)
        (shapeCast S32x2048x64 (m ((c : Thread nD τ).loc main_arg1)) shapeCasts_S2x16x2048x64_S32x2048x64)
        (shapeCast S32x2048x2048 (m ((c : Thread nD τ).loc main_arg3)) shapeCasts_S2x16x2048x2048_S32x2048x2048) := by
  unfold attnOf
  rw [V_q, V_k]
  exact congrArg (attn3 _ _) (maskOf_eq m c)

theorem outOf_eq (c : Dev nD) : outOf m c
    = out3 (shapeCast S32x2048x64 (m ((c : Thread nD τ).loc main_arg0)) shapeCasts_S2x16x2048x64_S32x2048x64)
        (shapeCast S32x2048x64 (m ((c : Thread nD τ).loc main_arg1)) shapeCasts_S2x16x2048x64_S32x2048x64)
        (shapeCast S32x2048x64 (m ((c : Thread nD τ).loc main_arg2)) shapeCasts_S2x16x2048x64_S32x2048x64)
        (shapeCast S32x2048x2048 (m ((c : Thread nD τ).loc main_arg3)) shapeCasts_S2x16x2048x2048_S32x2048x2048) := by
  unfold outOf
  rw [V_q, V_k, V_v]
  exact congrArg (out3 _ _ _) (maskOf_eq m c)

/-- The weights' result buffer: the four-axis weights of the arguments. -/
theorem result_attn (c : Dev nD) :
    Pipeline.afterTail₀ cfgs (dats m) 0 (V0 m) [hostOps1] c main_v7
      = attn4 (m ((c : Thread nD τ).loc main_arg0)) (m ((c : Thread nD τ).loc main_arg1)) (m ((c : Thread nD τ).loc main_arg3)) := by
  rw [tail_attn, final_attn, attnOf_eq]
  exact attn_reshape _ _ _ _ _ _

/-- The output's result buffer. -/
theorem result_out (c : Dev nD) :
    Pipeline.afterTail₀ cfgs (dats m) 0 (V0 m) [hostOps1] c main_v6
      = out4 (m ((c : Thread nD τ).loc main_arg0)) (m ((c : Thread nD τ).loc main_arg1)) (m ((c : Thread nD τ).loc main_arg2))
          (m ((c : Thread nD τ).loc main_arg3)) := by
  rw [tail_out, final_out, outOf_eq]
  exact out_reshape _ _ _ _ _ _ _

/-! ## The run, read -/

/-- Every weakly fair execution of the idealized kernel program terminates with its two results at the
    specification's functions of the arguments, and the arguments unchanged. -/
theorem run : θ_run defs (onTc (τ := τ) (main (F := Ideal))) ⟨m, fun _ => 0, ρ⟩ fun r => ∀ c : Dev nD,
      r.2.mem ((c.tc : Thread nD τ).loc main_v6)
        = out4 (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v7)
        = attn4 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v6 (Pipeline.mem_restRefs_of main_v6 (by decide) (by decide))).trans (result_out m c),
       ((h c).2 main_v7 (Pipeline.mem_restRefs_of main_v7 (by decide) (by decide))).trans (result_attn m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KValue

end
-- ==== Proof.lean ====
/- Masked scaled-dot-product attention: a Pallas kernel against its jnp reference, equal over the extended reals.

   For batch `b`, head `n`, query row `r` and key `c` the score is `(∑_d q[b,n,r,d] k[b,n,c,d]) / 8`, a masked
   entry is sent to minus infinity, the weights are the row's softmax with a masked entry written 0, and the output is
   the weights applied to the values. The kernel merges batch and head into 32 slabs and handles 512 query rows of a slab
   per grid point against the slab's whole keys and values; it scales by the dyadic 1/8 instead of dividing by 8,
   masks with a finite stand-in that the certificate names minus infinity, and multiplies each exponential by the
   reciprocal of the row sum where the reference divides by it.

   The one law between the two sides: `e * (1 / L) = e / L` on the extended reals whenever `L ≠ 0`. At an unmasked
   entry the row sum is not zero because, the inputs being finite, the entry's own score is a real, hence so is the
   row maximum, hence the entry's own exponential is positive (Softmax.lean); at a masked entry both sides write 0.
   This is the only use of the precondition.

   The modules: Consts (the literals), Softmax (a row, and the law), Spec (the two results as functions of the
   arguments, over four axes and over slabs, and the reshape between them), ScoreReal and Finite (the precondition
   read as: every score is a real), RefValue (the reference's results are those functions), Payload (the kernel
   body's arithmetic at an index), KernelValue (the kernel's result arrays are those functions). -/
import proofs.«419633_j62277025792399_3_alg».proof.Defs
import proofs.«419633_j62277025792399_3_alg».proof.Proof.Gen.Kernel
import proofs.«419633_j62277025792399_3_alg».proof.Proof.Gen.Kernel.Skeleton
import proofs.«419633_j62277025792399_3_alg».proof.Proof.Gen.Kernel.Launch
import proofs.«419633_j62277025792399_3_alg».proof.Proof.Gen.Kernel.Points
import proofs.«419633_j62277025792399_3_alg».proof.Proof.Gen.Kernel.Frame
import proofs.«419633_j62277025792399_3_alg».proof.Proof.Gen.KernelIdeal
import proofs.«419633_j62277025792399_3_alg».proof.Proof.Gen.KernelIdeal.Skeleton
import proofs.«419633_j62277025792399_3_alg».proof.Proof.Gen.KernelIdeal.Launch
import proofs.«419633_j62277025792399_3_alg».proof.Proof.Gen.KernelIdeal.Points
import proofs.«419633_j62277025792399_3_alg».proof.Proof.Gen.KernelIdeal.Frame
import proofs.«419633_j62277025792399_3_alg».proof.Proof.Gen.ReferenceIdeal
import proofs.«419633_j62277025792399_3_alg».proof.Proof.Gen.Pre_finite_inputs
import proofs.«419633_j62277025792399_3_alg».proof.Proof.Gen.ReferenceIdeal.Run
import proofs.«419633_j62277025792399_3_alg».proof.Proof.Gen.ReferenceIdeal.Read
import proofs.«419633_j62277025792399_3_alg».proof.Proof.Finite
import proofs.«419633_j62277025792399_3_alg».proof.Proof.RefValue
import proofs.«419633_j62277025792399_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the table gives the mask fill the value minus infinity. -/
theorem preserves : Cert.preserves_Kernel_KernelIdeal :=
  IdealRules.named_const.statement Cert.KernelIdeal.κ "neg_big" .f32 0xFF333332#32 ⊥ rfl

/-- Both programs end with the output at the weights applied to the values and the weights at the masked row softmax of
    the scaled scores, of arguments that agree; the precondition makes every score a real, which the reference's
    quotient form needs to meet the kernel's reciprocal form. -/
theorem algebraic : Cert.algebraic_KernelIdeal_ReferenceIdeal := by
  intro m ρ m' ρ' hpre hagree
  refine ⟨fun c => Cert.Attn.out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attn.attn4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ?_) (Cert.ReferenceIdeal.Value.run (F := Ideal) m' ρ')
  obtain ⟨hq, hk, _⟩ := Cert.Attn.Finite.reals_of_pre _ _ _ _ (hpre c)
  obtain ⟨a0, a1, a2, a3⟩ := hagree c
  refine ⟨?_, ?_, (h c).2.2⟩
  · rw [(h c).1, Cert.ReferenceIdeal.Read.val_main_v16_eq, a0, a1, a2, a3]
    exact Cert.ReferenceIdeal.RefValue.out_eq _ _ _ _ hq hk
  · rw [(h c).2.1, Cert.ReferenceIdeal.Read.val_main_v15_eq, a0, a1, a3]
    exact Cert.ReferenceIdeal.RefValue.attn_eq _ _ _ hq hk

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
